-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  main_v18

def fn {F : FTy → Type} [FloatOps F] (main_arg0 : FVec F S8x2048x256 .f32) (main_arg1 : FVec F S8x2048x256 .f32) (main_arg2 : FVec F S8x2048x256 .f32) (main_arg3 : FVec F S8x2048x2048 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S1x1024x256 : Shape := ⟨3, ![1, 1024, 256]⟩
abbrev S1x2048x256 : Shape := ⟨3, ![1, 2048, 256]⟩
abbrev S1x1024x2048 : Shape := ⟨3, ![1, 1024, 2048]⟩
abbrev S1024x256 : Shape := ⟨2, ![1024, 256]⟩
abbrev S2048x256 : Shape := ⟨2, ![2048, 256]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x2048, .f32⟩
  | .hbm, ⟨4, _⟩ => ⟨S8x2048x256, .bf16⟩
  | .hbm, ⟨5, _⟩ => ⟨S8x2048x256, .bf16⟩
  | .hbm, ⟨6, _⟩ => ⟨S8x2048x256, .bf16⟩
  | .hbm, ⟨7, _⟩ => ⟨S8x2048x256, .f32⟩
  | .local _ .vmem, ⟨0, _⟩ => ⟨S1x1024x256, .bf16⟩
  | .local _ .vmem, ⟨1, _⟩ => ⟨S1x1024x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1024x2048, .f32⟩
  | .local _ .vmem, ⟨7, _⟩ => ⟨S1x1024x2048, .f32⟩
  | .local _ .vmem, ⟨8, _⟩ => ⟨S1x1024x256, .f32⟩
  | .local _ .vmem, ⟨9, _⟩ => ⟨S1x1024x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  shapeCasts_S1024x256_S1x1024x256 : S1024x256.ShapeCasts S1x1024x256
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x2048x256.size a
  hwx0_0 : ∀ i : grid0.Coords, EltTy.bits .bf16 = 32 ∨ (Rect.block (s := S8x2048x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .bf16 = 32 ∨ (Rect.block (s := S8x2048x256) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x256.size a
  hwx0_2 : ∀ i : grid0.Coords, EltTy.bits .bf16 = 32 ∨ (Rect.block (s := S8x2048x256) S1x2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x2048x2048.size a
  hwx0_3 : ∀ i : grid0.Coords, EltTy.bits .f32 = 32 ∨ (Rect.block (s := S8x2048x2048) S1x1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x2048x256.size a
  hwx0_4 : ∀ i : grid0.Coords, EltTy.bits .f32 = 32 ∨ (Rect.block (s := S8x2048x256) S1x1024x256.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x1 : S_.BroadcastsInDim S8x2048x1 (![] : Fin 0 → Fin S8x2048x1.rank)
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.RowMath.lean ====
/-
  One row of gated softmax attention with an L1 renormalisation, written two ways over the extended reals, and the
  proof that the two agree when every entry is a real number.

  Fix a query row q (indexed by the feature axis), the keys kk (key, feature), one column vv of the values (indexed by
  key), and the row mm of the gate (indexed by key).

  The first form scales the query by a constant c before the scores are taken, subtracts the row's maximum mx, and keeps
  everything unnormalised:  p k = exp (s k - mx),  pm k = p k * mm k,
      out = (sum_k pm k * vv k) * (1 / (sum_k |pm k| + eps * sum_k p k)).
  The second form divides the scores by a constant sq, normalises the exponentials to a softmax  a k = p k / sum p,
  gates it, and renormalises by the L1 norm plus eps:
      out = sum_k ((a k * mm k) / (sum_k |a k * mm k| + eps)) * vv k.
  With l = sum p > 0 one has sum |a * mm| = (sum |p * mm|) / l, so
      (a k * mm k) / (sum |a * mm| + eps) = pm k / (sum |pm| + eps * l),
  and the common factor leaves the sum over k. Every step is an identity of real numbers; it fails at the infinities
  (the distributive law does), which is why the entries are assumed real.
-/
import Idealize.ShloMosaic.PureOps.Ideal

noncomputable section

open scoped BigOperators

namespace Cert.AttnRow

open Idealize.ShloMosaic

variable {κ δ : Type} [Fintype κ] [Fintype δ]

/-! ## The two forms -/

/-- The scores of the first form: the query scaled by c, then contracted with each key. -/
def scoreScaled (c : EReal) (q : δ → EReal) (kk : κ → δ → EReal) (k : κ) : EReal :=
  ∑ d, (q d * c) * kk k d

/-- The scores of the second form: the contraction, then divided by sq. -/
def scoreDivided (sq : EReal) (q : δ → EReal) (kk : κ → δ → EReal) (k : κ) : EReal :=
  Ideal.div (∑ d, q d * kk k d) sq

/-- The first form: unnormalised exponentials, one reciprocal of (L1 norm + eps * their sum) at the end. -/
def unnormalised (c ninf eps one : EReal) (q : δ → EReal) (kk : κ → δ → EReal) (vv mm : κ → EReal) : EReal :=
  let s := scoreScaled c q kk
  let mx := Finset.univ.fold max ninf s
  let p := fun k => Ideal.exp (s k - mx)
  let pm := fun k => p k * mm k
  (∑ k, pm k * vv k) * Ideal.div one ((∑ k, max (pm k) (-(pm k))) + eps * ∑ k, p k)

/-- The second form: softmax, gate, L1 renormalisation with eps, then the weighted sum of the values. -/
def normalised (sq ninf zero eps : EReal) (q : δ → EReal) (kk : κ → δ → EReal) (vv mm : κ → EReal) : EReal :=
  let s := scoreDivided sq q kk
  let mx := max ninf (Finset.univ.fold max ninf s)
  let p := fun k => Ideal.exp (s k - mx)
  let l := zero + ∑ k, p k
  let am := fun k => Ideal.div (p k) l * mm k
  let nrm := (zero + ∑ k, max (am k) (-(am k))) + eps
  ∑ k, Ideal.div (am k) nrm * vv k

/-! ## Real numbers inside the extended reals -/

/-- A finite sum of real numbers, taken in the extended reals, is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The coercion of the reals into the extended reals is monotone, so it commutes with the maximum. -/
theorem coe_max (a b : ℝ) : ((max a b : ℝ) : EReal) = max (a : EReal) (b : EReal) :=
  EReal.coe_strictMono.monotone.map_max

/-- The maximum of a nonempty finite family of real numbers, folded from minus infinity, is a real number. -/
theorem fold_max_bot_coe {ι : Type} (s : Finset ι) (hs : s.Nonempty) (f : ι → ℝ) :
    ∃ M : ℝ, s.fold max (⊥ : EReal) (fun k => ((f k : ℝ) : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM, coe_max]

/-- The quotient of a real by a nonzero real is the real quotient. -/
theorem div_coe_coe (x y : ℝ) (hy : y ≠ 0) : Ideal.div (x : EReal) (y : EReal) = ((x / y : ℝ) : EReal) := by
  rw [Ideal.div_coe hy, ← EReal.coe_mul, mul_one_div]

/-- The absolute value of a real, written as the greater of it and its negative. -/
theorem max_neg_coe (x : ℝ) : max (x : EReal) (-(x : EReal)) = ((|x| : ℝ) : EReal) := by
  rw [← EReal.coe_neg, ← coe_max, abs_eq_max_neg]

/-! ## The two forms agree on real entries -/

/-- The real identity behind the agreement: with l = sum p > 0, n = sum |p * g| and a = sum p * g * v,
    sum_k ((p k / l * g k) / (sum |p / l * g| + e)) * v k  =  a * (1 / (n + e * l)). -/
theorem real_identity {ι : Type} [Fintype ι] (p g v : ι → ℝ) (e : ℝ) (he : 0 < e) (hl : 0 < ∑ k, p k) :
    (∑ k, p k * g k * v k) * (1 / ((∑ k, |p k * g k|) + e * ∑ k, p k))
      = ∑ k, (p k / (∑ k, p k) * g k) / ((∑ k, |p k / (∑ k, p k) * g k|) + e) * v k := by
  set l : ℝ := ∑ k, p k with hl'
  set n : ℝ := ∑ k, |p k * g k| with hn'
  have hn : 0 ≤ n := Finset.sum_nonneg fun k _ => abs_nonneg _
  have hnl : (∑ k, |p k / l * g k|) = n / l := by
    rw [hn', Finset.sum_div]
    refine Finset.sum_congr rfl fun k _ => ?_
    rw [abs_mul, abs_div, abs_of_pos hl, abs_mul]
    ring
  rw [hnl, Finset.sum_mul]
  refine Finset.sum_congr rfl fun k _ => ?_
  have h1 : n + e * l ≠ 0 := ne_of_gt (add_pos_of_nonneg_of_pos hn (mul_pos he hl))
  have h2 : n / l + e ≠ 0 := ne_of_gt (add_pos_of_nonneg_of_pos (div_nonneg hn hl.le) he)
  have h3 : l ≠ 0 := ne_of_gt hl
  field_simp

variable [Nonempty κ]

/-- On real entries — with the scale one sixteenth against the divisor sixteen, minus infinity as the start of both
    maxima, a positive real eps, and the constants one and zero — the two forms are one extended real. -/
theorem unnormalised_eq_normalised (e : ℝ) (he : 0 < e) (q : δ → ℝ) (kk : κ → δ → ℝ) (vv mm : κ → ℝ) :
    unnormalised (((1 : ℝ) / 16 : ℝ) : EReal) ⊥ (e : EReal) 1 (fun d => ((q d : ℝ) : EReal))
        (fun k d => ((kk k d : ℝ) : EReal)) (fun k => ((vv k : ℝ) : EReal)) (fun k => ((mm k : ℝ) : EReal))
      = normalised ((16 : ℝ) : EReal) ⊥ 0 (e : EReal) (fun d => ((q d : ℝ) : EReal))
        (fun k d => ((kk k d : ℝ) : EReal)) (fun k => ((vv k : ℝ) : EReal)) (fun k => ((mm k : ℝ) : EReal)) := by
  -- the scores of both forms are the same real numbers
  let sr : κ → ℝ := fun k => (∑ d, q d * kk k d) / 16
  have hsK : scoreScaled (((1 : ℝ) / 16 : ℝ) : EReal) (fun d => ((q d : ℝ) : EReal)) (fun k d => ((kk k d : ℝ) : EReal))
      = fun k => ((sr k : ℝ) : EReal) := by
    funext k
    unfold scoreScaled
    simp only [← EReal.coe_mul]
    rw [coe_sum]
    refine congrArg _ ?_
    show _ = (∑ d, q d * kk k d) / 16
    rw [Finset.sum_div]
    exact Finset.sum_congr rfl fun d _ => by ring
  have hsR : scoreDivided ((16 : ℝ) : EReal) (fun d => ((q d : ℝ) : EReal)) (fun k d => ((kk k d : ℝ) : EReal))
      = fun k => ((sr k : ℝ) : EReal) := by
    funext k
    unfold scoreDivided
    simp only [← EReal.coe_mul]
    rw [coe_sum, div_coe_coe _ _ (by norm_num)]
  -- their maximum is a real number M
  obtain ⟨M, hM⟩ := fold_max_bot_coe Finset.univ Finset.univ_nonempty sr
  -- the shifted exponentials are positive reals, and so is their sum
  let P : κ → ℝ := fun k => Real.exp (sr k - M)
  have hexp : ∀ k, Ideal.exp (((sr k : ℝ) : EReal) - (M : EReal)) = ((P k : ℝ) : EReal) := fun k => by
    rw [← EReal.coe_sub, Ideal.exp_coe]
  have hLpos : 0 < ∑ k, P k := Finset.sum_pos (fun k _ => Real.exp_pos _) Finset.univ_nonempty
  have hN : 0 ≤ ∑ k, |P k * mm k| := Finset.sum_nonneg fun k _ => abs_nonneg _
  have hD : (∑ k, |P k * mm k|) + e * ∑ k, P k ≠ 0 := ne_of_gt (add_pos_of_nonneg_of_pos hN (mul_pos he hLpos))
  have hN' : 0 ≤ ∑ k, |P k / (∑ k, P k) * mm k| := Finset.sum_nonneg fun k _ => abs_nonneg _
  have hD' : (∑ k, |P k / (∑ k, P k) * mm k|) + e ≠ 0 := ne_of_gt (add_pos_of_nonneg_of_pos hN' he)
  -- the first form, as a real number
  have hK : unnormalised (((1 : ℝ) / 16 : ℝ) : EReal) ⊥ (e : EReal) 1 (fun d => ((q d : ℝ) : EReal))
        (fun k d => ((kk k d : ℝ) : EReal)) (fun k => ((vv k : ℝ) : EReal)) (fun k => ((mm k : ℝ) : EReal))
      = (((∑ k, P k * mm k * vv k) * (1 / ((∑ k, |P k * mm k|) + e * ∑ k, P k)) : ℝ) : EReal) := by
    unfold unnormalised
    rw [hsK]
    simp only [hM, hexp, ← EReal.coe_mul, max_neg_coe, coe_sum, ← EReal.coe_add]
    rw [← EReal.coe_one, div_coe_coe _ _ hD, ← EReal.coe_mul]
  -- the second form, as a real number
  have hR : normalised ((16 : ℝ) : EReal) ⊥ 0 (e : EReal) (fun d => ((q d : ℝ) : EReal))
        (fun k d => ((kk k d : ℝ) : EReal)) (fun k => ((vv k : ℝ) : EReal)) (fun k => ((mm k : ℝ) : EReal))
      = ((∑ k, (P k / (∑ k, P k) * mm k) / ((∑ k, |P k / (∑ k, P k) * mm k|) + e) * vv k : ℝ) : EReal) := by
    unfold normalised
    rw [hsR]
    simp only [hM, max_eq_right (bot_le : (⊥ : EReal) ≤ _), hexp, zero_add, coe_sum,
      div_coe_coe _ _ (ne_of_gt hLpos), ← EReal.coe_mul, max_neg_coe, ← EReal.coe_add, div_coe_coe _ _ hD']
  rw [hK, hR]
  exact congrArg _ (real_identity P mm vv e he hLpos)

end Cert.AttnRow

end
-- ==== Proof.KernelRow.lean ====
/-
  The kernel's block, read at one element, is the unnormalised form of the attention row.

  One grid point loads a block of 1024 query rows, all 2048 keys and values of its batch, and the matching 1024 rows
  of the gate. Element (0, r, d) of what it stores depends on the query block only through row r, on the values only
  through column d, and on the gate only through row r: it is Cert.AttnRow.unnormalised of those. The proof reads each
  operation of the body at an index: the two matrix products as sums over the contracted axis, the two lane sums and the
  lane maximum as a sum and a fold over the 2048 keys, the casts between [1, a, b] and [a, b], the cast of a vector to a
  column and the broadcast of a column along the lanes.
-/
import proofs.«410441_j50543175139786_3_alg».proof.Proof.Gen.KernelIdeal.Skeleton
import proofs.«410441_j50543175139786_3_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.AttnRow

/-! ## A vector as a column, and a column along the lanes -/

section Layout
variable {α : Type}

/-- A vector of length a cast to a column [a, 1] reads, at (r, 0), the vector at r. -/
theorem castColumn_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A column [1024, 1] broadcast along b lanes reads, at (r, k), the column at (r, 0). -/
theorem broadcastColumn_apply {b : ℕ} (v : (⟨2, ![1024, 1]⟩ : Shape).Idx → α)
    (h : (⟨2, ![1024, 1]⟩ : Shape).Broadcasts ⟨2, ![1024, b]⟩) (r : Fin 1024) (k : Fin b) :
    broadcastTo ⟨2, ![1024, b]⟩ v h (ix2 r k) = v (ix2 r (0 : Fin 1)) :=
  broadcastTo_apply v h _ _ (fun a => match a with
    | ⟨0, _⟩ => by show r.val = if (1024 : ℕ) = 1 then 0 else r.val; rw [if_neg (by decide)]
    | ⟨1, _⟩ => by show (0 : ℕ) = if (1 : ℕ) = 1 then 0 else k.val; rw [if_pos rfl])

end Layout

/-! ## The two matrix products at an index -/

theorem lhs_scores_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_scores_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_scores_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_scores_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- Queries [1024, 256] against keys [2048, 256], both contracted over the feature axis, into a zero accumulator:
    at (r, k) the sum over the 256 features of query r times key k. -/
theorem scoresMatmul_apply (a : FVec Ideal S1024x256 .bf16) (b : FVec Ideal S2048x256 .bf16) (r : Fin 1024) (k : Fin 2048) :
    matmul dot_S1024x256_S2048x256_S1024x2048_1_1_0_0_n_n none a b (constant S1024x2048 .f32 0x00000000#32) (ix2 r k)
      = ∑ d : Fin 256, a (ix2 r d) * b (ix2 k d) := by
  simp only [matmul]
  rw [Ideal.matmul_constant_zero_apply, ← Equiv.sum_comp (contrEquiv1 dot_S1024x256_S2048x256_S1024x2048_1_1_0_0_n_n 256 rfl rfl).symm]
  refine Finset.sum_congr rfl fun d _ => ?_
  have hk := contrEquiv1_symm_val dot_S1024x256_S2048x256_S1024x2048_1_1_0_0_n_n 256 rfl rfl d
  have el : dot_S1024x256_S2048x256_S1024x2048_1_1_0_0_n_n.lhsIdx (ix2 r k) ((contrEquiv1 dot_S1024x256_S2048x256_S1024x2048_1_1_0_0_n_n 256 rfl rfl).symm d) = ix2 r d := funext fun a => Fin.ext (by
    match a with
    | ⟨0, _⟩ => exact lhs_scores_0 _ _
    | ⟨1, _⟩ => exact (lhs_scores_1 _ _).trans hk)
  have er : dot_S1024x256_S2048x256_S1024x2048_1_1_0_0_n_n.rhsIdx (ix2 r k) ((contrEquiv1 dot_S1024x256_S2048x256_S1024x2048_1_1_0_0_n_n 256 rfl rfl).symm d) = ix2 k d := funext fun a => Fin.ext (by
    match a with
    | ⟨0, _⟩ => exact rhs_scores_0 _ _
    | ⟨1, _⟩ => exact (rhs_scores_1 _ _).trans hk)
  rw [el, er]

theorem lhs_values_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_values_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_values_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_values_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- Weights [1024, 2048] against values [2048, 256] into a zero accumulator: at (r, d) the sum over the 2048 keys of
    weight (r, k) times value (k, d). -/
theorem valuesMatmul_apply (a : FVec Ideal S1024x2048 .bf16) (b : FVec Ideal S2048x256 .bf16) (r : Fin 1024) (d : Fin 256) :
    matmul dot_S1024x2048_S2048x256_S1024x256_1_0_0_1_n_n none a b (constant S1024x256 .f32 0x00000000#32) (ix2 r d)
      = ∑ k : Fin 2048, a (ix2 r k) * b (ix2 k d) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r d) ((contrEquiv1 dot_S1024x2048_S2048x256_S1024x256_1_0_0_1_n_n 2048 rfl rfl).symm k) = ix2 r k := funext fun a => Fin.ext (by
    match a with
    | ⟨0, _⟩ => exact lhs_values_0 _ _
    | ⟨1, _⟩ => exact (lhs_values_1 _ _).trans hk)
  have er : dot_S1024x2048_S2048x256_S1024x256_1_0_0_1_n_n.rhsIdx (ix2 r d) ((contrEquiv1 dot_S1024x2048_S2048x256_S1024x256_1_0_0_1_n_n 2048 rfl rfl).symm k) = ix2 k d := funext fun a => Fin.ext (by
    match a with
    | ⟨0, _⟩ => exact (rhs_values_0 _ _).trans hk
    | ⟨1, _⟩ => exact rhs_values_1 _ _)
  rw [el, er]

/-! ## The lane sum and the lane maximum at a row -/

/-- The sum over the lanes of a [1024, 2048] array, at row r: the sum over the 2048 keys. -/
theorem rowSum_apply (src : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ k : Fin 2048, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- The maximum over the lanes, at row r: the fold of max from the accumulator's value over the 2048 keys. -/
theorem rowMax_apply (src : FVec Ideal S1024x2048 .f32) (h : S1024x2048.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 2048)).fold max (Ideal.ofBits .f32 0xFF800000#32) (fun k => src (ix2 r k)) := by
  refine (Ideal.multiReduction_maximumf_single src 0xFF800000#32 h hφ hacc (ix1 r)).trans ?_
  exact congrArg (fun f => Finset.fold max (Ideal.ofBits .f32 0xFF800000#32) f (Finset.univ : Finset (Fin 2048)))
    (funext fun k => congrArg src (funext fun a => Fin.ext (by
      match a with
      | ⟨0, _⟩ => rfl
      | ⟨1, _⟩ => rfl)))

/-! ## The body's arithmetic in three steps -/

/-- The scores of a block: the query rows scaled by the bf16 constant, then contracted with the keys. -/
def scores (x0 : Vec Ideal S1x1024x256 .bf16) (x1 : Vec Ideal S1x2048x256 .bf16) : FVec Ideal S1024x2048 .f32 :=
  matmul dot_S1024x256_S2048x256_S1024x2048_1_1_0_0_n_n none
    (mulf (shapeCast S1024x256 x0 shapeCasts_S1x1024x256_S1024x256) (broadcast S1024x256 (Scalar.ofBits .bf16 0x3D80#16)))
    (shapeCast S2048x256 x1 shapeCasts_S1x2048x256_S2048x256 : FVec Ideal S2048x256 .bf16) (constant S1024x2048 .f32 0x00000000#32)

/-- The exponentials of the scores shifted by their row maximum. -/
def shiftedExp (s : FVec Ideal S1024x2048 .f32) : FVec Ideal S1024x2048 .f32 :=
  exp (subf s (broadcastTo S1024x2048
    (shapeCast S1024x1 (multiReduction .maximumf [1] S1024 s 0xFF800000#32 reduces_S1024x2048_S1024 (.inl rfl) rfl) shapeCasts_S1024_S1024x1)
    broadcasts_S1024x1_S1024x2048))

/-- The stored block from the exponentials p: the gated weights p * gate contracted with the values, times the
    reciprocal of (the row sum of |p * gate| + eps * the row sum of p). -/
def gatedOutput (p : FVec Ideal S1024x2048 .f32) (x2 : Vec Ideal S1x2048x256 .bf16) (x3 : Vec Ideal S1x1024x2048 .f32) :
    FVec Ideal S1x1024x256 .f32 :=
  shapeCast S1x1024x256
    (mulf
      (matmul dot_S1024x2048_S2048x256_S1024x256_1_0_0_1_n_n none
        (truncf .bf16 (mulf p (shapeCast S1024x2048 x3 shapeCasts_S1x1024x2048_S1024x2048)) bitsLt_bf16_f32)
        (shapeCast S2048x256 x2 shapeCasts_S1x2048x256_S2048x256 : FVec Ideal S2048x256 .bf16) (constant S1024x256 .f32 0x00000000#32))
      (broadcastTo S1024x256
        (divf (broadcast S1024x1 (Scalar.ofBits .f32 0x3F800000#32))
          (addf
            (shapeCast S1024x1 (multiReduction .add [1] S1024 (absf (mulf p (shapeCast S1024x2048 x3 shapeCasts_S1x1024x2048_S1024x2048))) 0x00000000#32 reduces_S1024x2048_S1024 (.inl rfl) rfl) shapeCasts_S1024_S1024x1)
            (mulf (broadcast S1024x1 (Scalar.ofBits .f32 0x322BCC77#32))
              (shapeCast S1024x1 (multiReduction .add [1] S1024 p 0x00000000#32 reduces_S1024x2048_S1024 (.inl rfl) rfl) shapeCasts_S1024_S1024x1))))
        broadcasts_S1024x1_S1024x256))
    shapeCasts_S1024x256_S1x1024x256

/-- The generated payload of the one store is these three steps composed. -/
theorem payload_eq (x0 : Vec Ideal S1x1024x256 .bf16) (x1 x2 : Vec Ideal S1x2048x256 .bf16) (x3 : Vec Ideal S1x1024x2048 .f32) :
    k0_pay1 (F := Ideal) x0 x1 x2 x3 = gatedOutput (shiftedExp (scores x0 x1)) x2 x3 := rfl

/-- A score at (r, k) is the scaled-query score of row r against key k. -/
theorem scores_apply (x0 : Vec Ideal S1x1024x256 .bf16) (x1 : Vec Ideal S1x2048x256 .bf16) (r : Fin 1024) (k : Fin 2048) :
    scores x0 x1 (ix2 r k)
      = scoreScaled (Ideal.ofBits .bf16 0x3D80#16) (fun d : Fin 256 => x0 (ix3 (0 : Fin 1) r d))
          (fun (k : Fin 2048) (d : Fin 256) => x1 (ix3 (0 : Fin 1) k d)) k := by
  unfold scores scoreScaled
  refine (scoresMatmul_apply _ _ r k).trans (Finset.sum_congr rfl fun d _ => ?_)
  exact congrArg₂ (· * ·)
    (congrArg (· * Ideal.ofBits .bf16 0x3D80#16) (shapeCast_1ab_ab_apply x0 shapeCasts_S1x1024x256_S1024x256 r d))
    (shapeCast_1ab_ab_apply x1 shapeCasts_S1x2048x256_S2048x256 k d)

/-- A shifted exponential at (r, k): exp of the score minus the fold of max over row r. -/
theorem shiftedExp_apply (s : FVec Ideal S1024x2048 .f32) (r : Fin 1024) (k : Fin 2048) :
    shiftedExp s (ix2 r k)
      = Ideal.exp (s (ix2 r k) - (Finset.univ : Finset (Fin 2048)).fold max (Ideal.ofBits .f32 0xFF800000#32) (fun k' => s (ix2 r k'))) := by
  unfold shiftedExp
  refine congrArg (fun z => Ideal.exp (s (ix2 r k) - z)) ?_
  exact (broadcastColumn_apply _ broadcasts_S1024x1_S1024x2048 r k).trans
    ((castColumn_apply _ shapeCasts_S1024_S1024x1 r 0).trans (rowMax_apply s _ _ _ r))

/-- The stored block at (0, r, d), from the exponentials p. -/
theorem gatedOutput_apply (p : FVec Ideal S1024x2048 .f32) (x2 : Vec Ideal S1x2048x256 .bf16) (x3 : Vec Ideal S1x1024x2048 .f32)
    (r : Fin 1024) (d : Fin 256) :
    gatedOutput p x2 x3 (ix3 (0 : Fin 1) r d)
      = (∑ k : Fin 2048, (p (ix2 r k) * x3 (ix3 (0 : Fin 1) r k)) * x2 (ix3 (0 : Fin 1) k d))
        * Ideal.div (Ideal.ofBits .f32 0x3F800000#32)
            ((∑ k : Fin 2048, max (p (ix2 r k) * x3 (ix3 (0 : Fin 1) r k)) (-(p (ix2 r k) * x3 (ix3 (0 : Fin 1) r k))))
              + Ideal.ofBits .f32 0x322BCC77#32 * ∑ k : Fin 2048, p (ix2 r k)) := by
  unfold gatedOutput
  refine (shapeCast_ab_1ab_apply _ shapeCasts_S1024x256_S1x1024x256 0 r d).trans ?_
  refine congrArg₂ (· * ·) ?_ ?_
  · refine (valuesMatmul_apply _ _ r d).trans (Finset.sum_congr rfl fun k _ => ?_)
    exact congrArg₂ (· * ·)
      (congrArg (p (ix2 r k) * ·) (shapeCast_1ab_ab_apply x3 shapeCasts_S1x1024x2048_S1024x2048 r k))
      (shapeCast_1ab_ab_apply x2 shapeCasts_S1x2048x256_S2048x256 k d)
  · refine (broadcastColumn_apply _ broadcasts_S1024x1_S1024x256 r d).trans ?_
    refine congrArg (Ideal.div (Ideal.ofBits .f32 0x3F800000#32)) ?_
    refine congrArg₂ (· + ·) ?_ ?_
    · refine (castColumn_apply _ shapeCasts_S1024_S1024x1 r 0).trans ((rowSum_apply _ _ _ _ r).trans ?_)
      refine Finset.sum_congr rfl fun k _ => ?_
      have e := congrArg (p (ix2 r k) * ·) (shapeCast_1ab_ab_apply x3 shapeCasts_S1x1024x2048_S1024x2048 r k)
      exact congrArg (fun z => max z (-z)) e
    · refine congrArg (Ideal.ofBits .f32 0x322BCC77#32 * ·) ?_
      exact (castColumn_apply _ shapeCasts_S1024_S1024x1 r 0).trans (rowSum_apply p _ _ _ r)

/-- THE BLOCK AT AN ELEMENT: what a grid point stores at (0, r, d) is the unnormalised form of row r of its query block
    against all keys, column d of the values and row r of the gate. -/
theorem payload_apply (x0 : Vec Ideal S1x1024x256 .bf16) (x1 x2 : Vec Ideal S1x2048x256 .bf16) (x3 : Vec Ideal S1x1024x2048 .f32)
    (r : Fin 1024) (d : Fin 256) :
    k0_pay1 (F := Ideal) x0 x1 x2 x3 (ix3 (0 : Fin 1) r d)
      = unnormalised (Ideal.ofBits .bf16 0x3D80#16) (Ideal.ofBits .f32 0xFF800000#32) (Ideal.ofBits .f32 0x322BCC77#32)
          (Ideal.ofBits .f32 0x3F800000#32) (fun d' : Fin 256 => x0 (ix3 (0 : Fin 1) r d'))
          (fun (k : Fin 2048) (d' : Fin 256) => x1 (ix3 (0 : Fin 1) k d')) (fun k : Fin 2048 => x2 (ix3 (0 : Fin 1) k d))
          (fun k : Fin 2048 => x3 (ix3 (0 : Fin 1) r k)) := by
  rw [payload_eq, gatedOutput_apply]
  unfold unnormalised
  simp only [shiftedExp_apply, scores_apply]

end Cert.KernelIdeal.RowValue

end
-- ==== Proof.Consts.lean ====
/-
  The float constants the two programs spell, as the extended reals their bit patterns denote.
  256.0 is the real 256 and its square root is 16; the pattern of minus infinity is the bottom element;
  the pattern 0x322BCC77 (the float nearest to 1e-8) is a positive real number, which is all that is used of it:
  it stands in the same place on both sides. One sixteenth and one are in the library.
-/
import Idealize.ShloMosaic.PureOps.Ideal
import Idealize.ShloMosaic.Lib.IdealHost

noncomputable section

namespace Cert.Consts

open Idealize.ShloMosaic

/-- The pattern of 256.0 denotes the real 256. -/
theorem ofBits_256 : Ideal.ofBits .f32 0x43800000#32 = ((256 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  rw [Ideal.sqrt_coe, if_neg (by norm_num)]
  refine congrArg _ ?_
  rw [show (256 : ℝ) = 16 ^ 2 by norm_num, Real.sqrt_sq (by norm_num)]

/-- The pattern of minus infinity denotes the bottom element. -/
theorem ofBits_neg_inf : Ideal.ofBits .f32 0xFF800000#32 = ⊥ := by
  simp [Ideal.ofBits, Ideal.ieee]

/-- The pattern 0x322BCC77 denotes a positive real number. -/
theorem ofBits_eps : ∃ e : ℝ, 0 < e ∧ Ideal.ofBits .f32 0x322BCC77#32 = (e : EReal) := by
  refine ⟨(2 ^ 23 + 2870391 : ℕ) * (2 : ℝ) ^ ((100 : ℤ) - 127 - 23), by positivity, ?_⟩
  simp [Ideal.ofBits, Ideal.ieee, -EReal.coe_mul]

end Cert.Consts

end
-- ==== Proof.Spec.lean ====
/-
  The result of gated softmax attention with L1 renormalisation as ONE function of the four argument arrays.

  Q, K, V are [8, 2048, 256] (batch, position, feature) and the gate M is [8, 2048, 2048] (batch, query, key).
  Entry (b, q, d) of the result is the attention row of query q of batch b against all keys of that batch, weighted by
  row q of the gate, applied to column d of the values. It is written in the two forms of Cert.AttnRow: the one the kernel
  computes block by block (scale folded into the query, one reciprocal at the end) and the one the reference computes
  (softmax, gate, renormalise). When every entry of the four arrays is a real number the two are equal: the scale 1/16
  against the divisor sqrt 256 = 16, the same positive eps on both sides.
-/
import proofs.«410441_j50543175139786_3_alg».proof.Proof.RowMath
import proofs.«410441_j50543175139786_3_alg».proof.Proof.Consts
import Idealize.ShloMosaic.Lib.ValueIdx
import Idealize.ShloMosaic.Lib.IdealHost
import Idealize.ShloMosaic.PureOps.Ideal.Laws

noncomputable section

namespace Cert.Spec

open Idealize.ShloMosaic Idealize.ShloMosaic.ValueIdx Cert.AttnRow

/-- Queries, keys and values: batch × position × feature. -/
abbrev QKV : Shape := ⟨3, ![8, 2048, 256]⟩
/-- The gate: batch × query × key. -/
abbrev Gate : Shape := ⟨3, ![8, 2048, 2048]⟩

/-- Entry (b, q, d) in the unnormalised form: the constants are the patterns the kernel spells. -/
def attnUnnormalised (Q K V : QKV.Idx → EReal) (M : Gate.Idx → EReal) (b : Fin 8) (q : Fin 2048) (d : Fin 256) : EReal :=
  unnormalised (Ideal.ofBits .bf16 0x3D80#16) (Ideal.ofBits .f32 0xFF800000#32) (Ideal.ofBits .f32 0x322BCC77#32)
    (Ideal.ofBits .f32 0x3F800000#32) (fun d' : Fin 256 => Q (ix3 b q d')) (fun (k : Fin 2048) (d' : Fin 256) => K (ix3 b k d'))
    (fun k : Fin 2048 => V (ix3 b k d)) (fun k : Fin 2048 => M (ix3 b q k))

/-- Entry (b, q, d) in the normalised form: the constants are the patterns the reference spells. -/
def attnNormalised (Q K V : QKV.Idx → EReal) (M : Gate.Idx → EReal) (b : Fin 8) (q : Fin 2048) (d : Fin 256) : EReal :=
  normalised (Ideal.sqrt (Ideal.ofBits .f32 0x43800000#32)) (Ideal.ofBits .f32 0xFF800000#32) (Ideal.ofBits .f32 0x00000000#32)
    (Ideal.ofBits .f32 0x322BCC77#32) (fun d' : Fin 256 => Q (ix3 b q d')) (fun (k : Fin 2048) (d' : Fin 256) => K (ix3 b k d'))
    (fun k : Fin 2048 => V (ix3 b k d)) (fun k : Fin 2048 => M (ix3 b q k))

/-- The whole result array, unnormalised form. -/
def arrayUnnormalised (Q K V : QKV.Idx → EReal) (M : Gate.Idx → EReal) : QKV.Idx → EReal :=
  fun i => attnUnnormalised Q K V M ⟨(i 0).val, (i 0).isLt⟩ ⟨(i 1).val, (i 1).isLt⟩ ⟨(i 2).val, (i 2).isLt⟩

/-- The whole result array, normalised form. -/
def arrayNormalised (Q K V : QKV.Idx → EReal) (M : Gate.Idx → EReal) : QKV.Idx → EReal :=
  fun i => attnNormalised Q K V M ⟨(i 0).val, (i 0).isLt⟩ ⟨(i 1).val, (i 1).isLt⟩ ⟨(i 2).val, (i 2).isLt⟩

/-- Every entry of the array is a real number. -/
def IsReal {s : Shape} (x : s.Idx → EReal) : Prop := ∀ i, ∃ r : ℝ, x i = (r : EReal)

/-- On real arrays the two forms of an entry agree. -/
theorem attn_forms_agree (Q K V : QKV.Idx → EReal) (M : Gate.Idx → EReal) (hQ : IsReal Q) (hK : IsReal K) (hV : IsReal V)
    (hM : IsReal M) (b : Fin 8) (q : Fin 2048) (d : Fin 256) :
    attnUnnormalised Q K V M b q d = attnNormalised Q K V M b q d := by
  choose qf hq using hQ
  choose kf hk using hK
  choose vf hv using hV
  choose mf hm using hM
  obtain ⟨e, he, hee⟩ := Cert.Consts.ofBits_eps
  unfold attnUnnormalised attnNormalised
  simp only [hq, hk, hv, hm, Ideal.ofBits_sixteenth_bf16, Cert.Consts.ofBits_neg_inf, hee, Ideal.ofBits_one_f32,
    Cert.Consts.ofBits_256, Cert.Consts.sqrt_256, Ideal.ofBits_zero_f32]
  exact unnormalised_eq_normalised e he _ _ _ _

/-- So the two forms of the whole array agree. -/
theorem array_forms_agree (Q K V : QKV.Idx → EReal) (M : Gate.Idx → EReal) (hQ : IsReal Q) (hK : IsReal K) (hV : IsReal V)
    (hM : IsReal M) : arrayUnnormalised Q K V M = arrayNormalised Q K V M :=
  funext fun _ => attn_forms_agree Q K V M hQ hK hV hM _ _ _

end Cert.Spec

end
-- ==== Proof.KernelArray.lean ====
/-
  From blocks to the array: after the kernel's run the result array is the unnormalised attention of the argument arrays.

  The grid is 8 batches × 2 halves of the query axis. Point (b, h) reads rows 1024 h … 1024 h + 1023 of batch b of the
  queries and of the gate, all 2048 keys and values of batch b, and writes rows 1024 h … of batch b of the result. The three
  casts to bf16 that the host applies before the launch are the identity on extended reals. An element of the block a point
  writes is the unnormalised attention row of Cert.AttnRow of the rows it read, which are the rows of the arrays that the
  array entry at the same place depends on; the sixteen blocks tile the result array.
-/
import proofs.«410441_j50543175139786_3_alg».proof.Proof.Gen.KernelIdeal.Value
import proofs.«410441_j50543175139786_3_alg».proof.Proof.KernelRow
import proofs.«410441_j50543175139786_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.RowValue Idealize.ShloMosaic.ValueIdx Cert.Spec

variable (m : (ℓ : Loc nD τ sig) → Buf (Elt Ideal) ℓ) (ρ : Dev nD → PrngReg)

theorem hz : (![0, 0, 0] : Fin 3 → Nat) = fun _ => 0 := funext fun a => by fin_cases a <;> rfl

/-! ## A block of the result from blocks that are rows of the arrays -/

/-- If the four loaded blocks are batch b of the arrays — the query and gate blocks their rows o … o + 1023, the key and
    value blocks whole — then the stored block at (u, r, d) is entry (b, o + r, d) of the unnormalised attention. -/
theorem block_value (x0 : Vec Ideal S1x1024x256 .bf16) (x1 x2 : Vec Ideal S1x2048x256 .bf16) (x3 : Vec Ideal S1x1024x2048 .f32)
    (A0 A1 A2 : S8x2048x256.Idx → EReal) (A3 : S8x2048x2048.Idx → EReal) (b : Fin 8) (o : ℕ) (ho : o + 1024 ≤ 2048)
    (h0 : ∀ (u : Fin 1) (r : Fin 1024) (d : Fin 256), x0 (ix3 u r d) = A0 (ix3 b (⟨o + r.val, by omega⟩ : Fin 2048) d))
    (h1 : ∀ (u : Fin 1) (k : Fin 2048) (d : Fin 256), x1 (ix3 u k d) = A1 (ix3 b k d))
    (h2 : ∀ (u : Fin 1) (k : Fin 2048) (d : Fin 256), x2 (ix3 u k d) = A2 (ix3 b k d))
    (h3 : ∀ (u : Fin 1) (r : Fin 1024) (k : Fin 2048), x3 (ix3 u r k) = A3 (ix3 b (⟨o + r.val, by omega⟩ : Fin 2048) k))
    (u : Fin 1) (r : Fin 1024) (d : Fin 256) :
    k0_pay1 (F := Ideal) x0 x1 x2 x3 (ix3 u r d) = attnUnnormalised A0 A1 A2 A3 b ⟨o + r.val, by omega⟩ d := by
  obtain rfl : u = 0 := Subsingleton.elim _ _
  rw [payload_apply]
  unfold attnUnnormalised
  simp only [h0, h1, h2, h3]

/-- The same at a whole index j of the block: entry (b, o + j 1, j 2). -/
theorem block_value_idx (x0 : Vec Ideal S1x1024x256 .bf16) (x1 x2 : Vec Ideal S1x2048x256 .bf16) (x3 : Vec Ideal S1x1024x2048 .f32)
    (A0 A1 A2 : S8x2048x256.Idx → EReal) (A3 : S8x2048x2048.Idx → EReal) (b : Fin 8) (o : ℕ) (ho : o + 1024 ≤ 2048)
    (h0 : ∀ (u : Fin 1) (r : Fin 1024) (d : Fin 256), x0 (ix3 u r d) = A0 (ix3 b (⟨o + r.val, by omega⟩ : Fin 2048) d))
    (h1 : ∀ (u : Fin 1) (k : Fin 2048) (d : Fin 256), x1 (ix3 u k d) = A1 (ix3 b k d))
    (h2 : ∀ (u : Fin 1) (k : Fin 2048) (d : Fin 256), x2 (ix3 u k d) = A2 (ix3 b k d))
    (h3 : ∀ (u : Fin 1) (r : Fin 1024) (k : Fin 2048), x3 (ix3 u r k) = A3 (ix3 b (⟨o + r.val, by omega⟩ : Fin 2048) k))
    (j : S1x1024x256.Idx) :
    k0_pay1 (F := Ideal) x0 x1 x2 x3 j
      = attnUnnormalised A0 A1 A2 A3 b ⟨o + (j 1).val, by have h : (j 1).val < 1024 := (j 1).isLt; omega⟩ ⟨(j 2).val, (j 2).isLt⟩ := by
  obtain ⟨u, r, d, rfl⟩ : ∃ (u : Fin 1) (r : Fin 1024) (d : Fin 256), j = ix3 u r d := ⟨j 0, j 1, j 2, eq_ix3 j⟩
  exact block_value x0 x1 x2 x3 A0 A1 A2 A3 b o ho h0 h1 h2 h3 u r d

/-! ## The arrays the region finds -/

/-- The host casts the queries to bf16 before the launch: on extended reals the cast is the identity. -/
theorem V_queries (c : Dev nD) :
    (V m c main_v0 : S8x2048x256.Idx → EReal) = (m ((c : Thread nD τ).loc main_arg0) : S8x2048x256.Idx → EReal) := by
  dsimp only [Gen.V, Gen.hostOps0]; after_results; rfl
/-- Likewise the keys. -/
theorem V_keys (c : Dev nD) :
    (V m c main_v1 : S8x2048x256.Idx → EReal) = (m ((c : Thread nD τ).loc main_arg1) : S8x2048x256.Idx → EReal) := by
  dsimp only [Gen.V, Gen.hostOps0]; after_results; rfl
/-- Likewise the values. -/
theorem V_values (c : Dev nD) :
    (V m c main_v2 : S8x2048x256.Idx → EReal) = (m ((c : Thread nD τ).loc main_arg2) : S8x2048x256.Idx → EReal) := by
  dsimp only [Gen.V, Gen.hostOps0]; after_results; rfl

/-! ## The index maps, decided over the sixteen grid points -/

/-- Every input window's block index in terms of the output window's: queries and gate move with the output, keys and values
    stay on the output's batch with block index zero on the other axes; the output's batch is below 8 and its half below 2. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) < 8 ∧ win0_4.index t (1 : Fin 3) < 2 :=
  (by decide +kernel : ∀ t : Fin grid0.N, _)

/-- Every (batch, half) is some point's output block. -/
theorem idx_onto : ∀ (q0 : Fin 8) (q1 : Fin 2), ∃ t : Fin cfg0.N, win0_4.index t = ![q0.val, q1.val, 0] :=
  (by decide +kernel : ∀ (q0 : Fin 8) (q1 : Fin 2), ∃ t : Fin grid0.N, win0_4.index t = ![q0.val, q1.val, 0])

/-! ## The input blocks as rows of the arrays -/

/-- The query block at a point whose block index is (b, h, 0) holds rows 1024 h … of batch b of the queries. -/
theorem read_queries (c : Dev nD) (t : Fin cfg0.N) (b : Fin 8) (o : ℕ) (ho : o + 1024 ≤ 2048)
    (hb : win0_0.index t (0 : Fin 3) = b.val) (h1 : win0_0.index t (1 : Fin 3) * 1024 = o) (h2 : win0_0.index t (2 : Fin 3) = 0)
    (u : Fin 1) (r : Fin 1024) (d : Fin 256) :
    (iblk m c 0 t : Vec Ideal S1x1024x256 .bf16) (ix3 u r d)
      = (V m c main_v0 : S8x2048x256.Idx → EReal) (ix3 b (⟨o + r.val, by omega⟩ : Fin 2048) d) := by
  unfold iblk
  rw [View.read_apply]
  refine congrArg (V m c main_v0 : S8x2048x256.Idx → EReal) (funext fun a => Fin.ext ?_)
  match a with
  | ⟨0, _⟩ => show win0_0.index t (0 : Fin 3) * 1 + 1 * u.val = b.val; have := u.isLt; omega
  | ⟨1, _⟩ => show win0_0.index t (1 : Fin 3) * 1024 + 1 * r.val = o + r.val; omega
  | ⟨2, _⟩ => show win0_0.index t (2 : Fin 3) * 256 + 1 * d.val = d.val; omega

/-- The key block at a point whose block index is (b, 0, 0) is batch b of the keys. -/
theorem read_keys (c : Dev nD) (t : Fin cfg0.N) (b : Fin 8)
    (hb : win0_1.index t (0 : Fin 3) = b.val) (h1 : win0_1.index t (1 : Fin 3) = 0) (h2 : win0_1.index t (2 : Fin 3) = 0)
    (u : Fin 1) (k : Fin 2048) (d : Fin 256) :
    (iblk m c 1 t : Vec Ideal S1x2048x256 .bf16) (ix3 u k d) = (V m c main_v1 : S8x2048x256.Idx → EReal) (ix3 b k d) := by
  unfold iblk
  rw [View.read_apply]
  refine congrArg (V m c main_v1 : S8x2048x256.Idx → EReal) (funext fun a => Fin.ext ?_)
  match a with
  | ⟨0, _⟩ => show win0_1.index t (0 : Fin 3) * 1 + 1 * u.val = b.val; have := u.isLt; omega
  | ⟨1, _⟩ => show win0_1.index t (1 : Fin 3) * 2048 + 1 * k.val = k.val; omega
  | ⟨2, _⟩ => show win0_1.index t (2 : Fin 3) * 256 + 1 * d.val = d.val; omega

/-- The value block likewise. -/
theorem read_values (c : Dev nD) (t : Fin cfg0.N) (b : Fin 8)
    (hb : win0_2.index t (0 : Fin 3) = b.val) (h1 : win0_2.index t (1 : Fin 3) = 0) (h2 : win0_2.index t (2 : Fin 3) = 0)
    (u : Fin 1) (k : Fin 2048) (d : Fin 256) :
    (iblk m c 2 t : Vec Ideal S1x2048x256 .bf16) (ix3 u k d) = (V m c main_v2 : S8x2048x256.Idx → EReal) (ix3 b k d) := by
  unfold iblk
  rw [View.read_apply]
  refine congrArg (V m c main_v2 : S8x2048x256.Idx → EReal) (funext fun a => Fin.ext ?_)
  match a with
  | ⟨0, _⟩ => show win0_2.index t (0 : Fin 3) * 1 + 1 * u.val = b.val; have := u.isLt; omega
  | ⟨1, _⟩ => show win0_2.index t (1 : Fin 3) * 2048 + 1 * k.val = k.val; omega
  | ⟨2, _⟩ => show win0_2.index t (2 : Fin 3) * 256 + 1 * d.val = d.val; omega

/-- The gate block at a point whose block index is (b, h, 0) holds rows 1024 h … of batch b of the gate. -/
theorem read_gate (c : Dev nD) (t : Fin cfg0.N) (b : Fin 8) (o : ℕ) (ho : o + 1024 ≤ 2048)
    (hb : win0_3.index t (0 : Fin 3) = b.val) (h1 : win0_3.index t (1 : Fin 3) * 1024 = o) (h2 : win0_3.index t (2 : Fin 3) = 0)
    (u : Fin 1) (r : Fin 1024) (k : Fin 2048) :
    (iblk m c 3 t : Vec Ideal S1x1024x2048 .f32) (ix3 u r k)
      = (V m c main_arg3 : S8x2048x2048.Idx → EReal) (ix3 b (⟨o + r.val, by omega⟩ : Fin 2048) k) := by
  unfold iblk
  rw [View.read_apply]
  refine congrArg (V m c main_arg3 : S8x2048x2048.Idx → EReal) (funext fun a => Fin.ext ?_)
  match a with
  | ⟨0, _⟩ => show win0_3.index t (0 : Fin 3) * 1 + 1 * u.val = b.val; have := u.isLt; omega
  | ⟨1, _⟩ => show win0_3.index t (1 : Fin 3) * 1024 + 1 * r.val = o + r.val; omega
  | ⟨2, _⟩ => show win0_3.index t (2 : Fin 3) * 2048 + 1 * k.val = k.val; omega

/-! ## What a point writes back -/

/-- WHAT POINT t WRITES BACK is block t of the unnormalised attention of the arrays as the region finds them. -/
theorem flushed_eq (c : Dev nD) (t : Fin cfg0.N) :
    (dats m 0 c).flushed 4 t = ((cfg0.win 4).blk t).view.read (Elt Ideal)
      (arrayUnnormalised (V m c main_v0) (V m c main_v1) (V m c main_v2) (V m c main_arg3)) := by
  rw [flushed4]
  unfold out0_4
  rw [View.canon_unit_zero hz]
  simp only [View.ld_unit_zero (S := S1x1024x256) hz, View.ld_unit_zero (S := S1x2048x256) hz, View.ld_unit_zero (S := S1x1024x2048) hz]
  obtain ⟨e00, e01, e02, e10, e11, e12, e20, e21, e22, e30, e31, e32, e42, hb, hh⟩ := idx_facts t
  have ho : win0_4.index t (1 : Fin 3) * 1024 + 1024 ≤ 2048 := by omega
  funext j
  refine (block_value_idx (iblk m c 0 t) (iblk m c 1 t) (iblk m c 2 t) (iblk m c 3 t)
    (V m c main_v0) (V m c main_v1) (V m c main_v2) (V m c main_arg3)
    ⟨win0_4.index t (0 : Fin 3), hb⟩ (win0_4.index t (1 : Fin 3) * 1024) ho
    (fun u r d => read_queries m c t ⟨win0_4.index t (0 : Fin 3), hb⟩ (win0_4.index t (1 : Fin 3) * 1024) ho e00 (by rw [e01]) e02 u r d)
    (fun u k d => read_keys m c t ⟨win0_4.index t (0 : Fin 3), hb⟩ e10 e11 e12 u k d)
    (fun u k d => read_values m c t ⟨win0_4.index t (0 : Fin 3), hb⟩ e20 e21 e22 u k d)
    (fun u r k => read_gate m c t ⟨win0_4.index t (0 : Fin 3), hb⟩ (win0_4.index t (1 : Fin 3) * 1024) ho e30 (by rw [e31]) e32 u r k) j).trans ?_
  rw [View.read_apply]
  unfold arrayUnnormalised
  have hj0 : (j 0).val < 1 := (j 0).isLt
  refine congr (congr (congrArg (attnUnnormalised _ _ _ _) (Fin.ext ?_)) (Fin.ext ?_)) (Fin.ext ?_)
  · show win0_4.index t (0 : Fin 3) = win0_4.index t (0 : Fin 3) * 1 + 1 * (j 0).val; omega
  · show win0_4.index t (1 : Fin 3) * 1024 + (j 1).val = win0_4.index t (1 : Fin 3) * 1024 + 1 * (j 1).val; omega
  · show (j 2).val = win0_4.index t (2 : Fin 3) * 256 + 1 * (j 2).val; omega

/-! ## The sixteen blocks tile the result array -/

/-- An index of the result array is in point t's block iff each coordinate is in the block's range on its axis. -/
theorem mem_blk (t : Fin cfg0.N) (i : S8x2048x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v3).slice (win0_4.rect t)).set ↔ _
  rw [View.set_slice_whole, Rect.mem_set_unit]
  exact Iff.rfl

/-- Every index of the result array is in the block of the point at its batch and its half of the query axis. -/
theorem covered (i : S8x2048x256.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- THE RESULT ARRAY after the run is the unnormalised attention of the four argument arrays. -/
theorem final (c : Dev nD) :
    (dats m 0 c).arrAt 4 cfg0.N = arrayUnnormalised (m ((c : Thread nD τ).loc main_arg0)) (m ((c : Thread nD τ).loc main_arg1))
      (m ((c : Thread nD τ).loc main_arg2)) (m ((c : Thread nD τ).loc main_arg3)) := by
  rw [(dats m 0 c).arrAt_eq_of_cover 4 _ (fun t _ => flushed_eq m c t) covered]
  rw [V_queries, V_keys, V_values, V_main_arg3]

/-! ## The run, read -/

/-- Every weakly fair execution of the kernel's program terminates with the result array at the unnormalised attention of
    the arguments, and the arguments unchanged. -/
theorem run : θ_run defs (onTc (τ := τ) (main (F := Ideal))) ⟨m, fun _ => 0, ρ⟩ fun r => ∀ c : Dev nD,
      r.2.mem ((c : Thread nD τ).loc main_v3) = arrayUnnormalised (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.RefValue.lean ====
/-
  The reference's result, read stage by stage at an index, is the normalised form of the attention.

  The reference computes, for batch b, query q and key k: the score (the contraction of query q with key k over the
  features, divided by sqrt 256); the row maximum over the keys (a fold of max from minus infinity, then once more the
  greater of minus infinity and it); the exponential of the shifted score; its row sum from zero; the softmax weight times
  the gate; the row sum of absolute values from zero, plus eps; the renormalised weight; and at (b, q, d) the sum over the
  keys of the renormalised weight times value (b, k, d). Each stage below is the generated stage read at literal
  coordinates; the maximum, which the generated reading leaves whole, is read as a fold over the key axis.
-/
import proofs.«410441_j50543175139786_3_alg».proof.Proof.Gen.ReferenceIdeal.Read
import proofs.«410441_j50543175139786_3_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.StageValue

open Cert.ReferenceIdeal Cert.ReferenceIdeal.Gen Cert.ReferenceIdeal.Read Idealize.ShloMosaic Idealize.ShloMosaic.ValueIdx
  Cert.AttnRow Cert.Spec

/-! ## The generated index maps at literal coordinates -/

theorem queryIdx (b : Fin 8) (q k : Fin 2048) (d : Fin 256) : lidx_main_v0 (ix3 b q k) d = ix3 b q d :=
  funext fun a => Fin.ext (by match a with | ⟨0, _⟩ => rfl | ⟨1, _⟩ => rfl | ⟨2, _⟩ => rfl)
theorem keyIdx (b : Fin 8) (q k : Fin 2048) (d : Fin 256) : ridx_main_v0 (ix3 b q k) d = ix3 b k d :=
  funext fun a => Fin.ext (by match a with | ⟨0, _⟩ => rfl | ⟨1, _⟩ => rfl | ⟨2, _⟩ => rfl)
theorem colIdx8 (b : Fin 8) (q k : Fin 2048) : idx_main_v8 (ix3 b q k) = ix3 b q (0 : Fin 1) :=
  funext fun a => Fin.ext (by match a with | ⟨0, _⟩ => rfl | ⟨1, _⟩ => rfl | ⟨2, _⟩ => rfl)
theorem colIdx13 (b : Fin 8) (q k : Fin 2048) : idx_main_v13 (ix3 b q k) = ix3 b q (0 : Fin 1) :=
  funext fun a => Fin.ext (by match a with | ⟨0, _⟩ => rfl | ⟨1, _⟩ => rfl | ⟨2, _⟩ => rfl)
theorem colIdx21 (b : Fin 8) (q k : Fin 2048) : idx_main_v21 (ix3 b q k) = ix3 b q (0 : Fin 1) :=
  funext fun a => Fin.ext (by match a with | ⟨0, _⟩ => rfl | ⟨1, _⟩ => rfl | ⟨2, _⟩ => rfl)
theorem rowIdx7 (b : Fin 8) (q : Fin 2048) (u : Fin 1) : idx_main_v7 (ix3 b q u) = ix2 b q :=
  funext fun a => Fin.ext (by match a with | ⟨0, _⟩ => rfl | ⟨1, _⟩ => rfl)
theorem rowIdx12 (b : Fin 8) (q : Fin 2048) (u : Fin 1) : idx_main_v12 (ix3 b q u) = ix2 b q :=
  funext fun a => Fin.ext (by match a with | ⟨0, _⟩ => rfl | ⟨1, _⟩ => rfl)
theorem rowIdx18 (b : Fin 8) (q : Fin 2048) (u : Fin 1) : idx_main_v18 (ix3 b q u) = ix2 b q :=
  funext fun a => Fin.ext (by match a with | ⟨0, _⟩ => rfl | ⟨1, _⟩ => rfl)
theorem sumIdx11 (b : Fin 8) (q k : Fin 2048) : idx_main_v11 (ix2 b q) k = ix3 b q k :=
  funext fun a => Fin.ext (by match a with | ⟨0, _⟩ => rfl | ⟨1, _⟩ => rfl | ⟨2, _⟩ => rfl)
theorem sumIdx17 (b : Fin 8) (q k : Fin 2048) : idx_main_v17 (ix2 b q) k = ix3 b q k :=
  funext fun a => Fin.ext (by match a with | ⟨0, _⟩ => rfl | ⟨1, _⟩ => rfl | ⟨2, _⟩ => rfl)
theorem weightIdx (b : Fin 8) (q : Fin 2048) (d : Fin 256) (k : Fin 2048) : lidx_main_v23 (ix3 b q d) k = ix3 b q k :=
  funext fun a => Fin.ext (by match a with | ⟨0, _⟩ => rfl | ⟨1, _⟩ => rfl | ⟨2, _⟩ => rfl)
theorem valueIdx (b : Fin 8) (q : Fin 2048) (d : Fin 256) (k : Fin 2048) : ridx_main_v23 (ix3 b q d) k = ix3 b k d :=
  funext fun a => Fin.ext (by match a with | ⟨0, _⟩ => rfl | ⟨1, _⟩ => rfl | ⟨2, _⟩ => rfl)

/-! ## The host's maximum over the key axis -/

/-- The key axis of an [8, 2048, 2048] array reduces to [8, 2048]. -/
theorem reducesKeys : S8x2048x2048.Reduces [2] S8x2048 := by decide

/-- The host's reduce with max over the key axis, at (b, q): the fold of max from the initial value over the 2048 keys. -/
theorem hostMax_apply (x : S8x2048x2048.Idx → EReal) (init : S_.Idx → EReal) (b : Fin 8) (q : Fin 2048) :
    Host.reduce (FloatOps.maximumf (F := Ideal) (φ := .f32)) x init reducesTo_S8x2048x2048_S8x2048_d2 h_S_ (ix2 b q)
      = (Finset.univ : Finset (Fin 2048)).fold max (init (Shape.Idx.first h_S_)) (fun k => x (ix3 b q k)) := by
  refine (Host.reduce_eq_fold_single (FloatOps.maximumf (F := Ideal) (φ := .f32)) x init
    reducesTo_S8x2048x2048_S8x2048_d2 reducesKeys h_S_ (ix2 b q)).trans ?_
  refine Finset.fold_congr fun k _ => ?_
  exact congrArg x (funext fun a => Fin.ext (by
    match a with
    | ⟨0, _⟩ => rfl
    | ⟨1, _⟩ => rfl
    | ⟨2, _⟩ => rfl))

/-! ## The stages of the normalised form, named -/

section Stages
variable (x0 x1 : QKV.Idx → EReal) (x3 : Gate.Idx → EReal) (b : Fin 8) (q : Fin 2048)

/-- The score of query q against key k. -/
def score (k : Fin 2048) : EReal :=
  scoreDivided (Ideal.sqrt (Ideal.ofBits .f32 0x43800000#32)) (fun d : Fin 256 => x0 (ix3 b q d))
    (fun (k : Fin 2048) (d : Fin 256) => x1 (ix3 b k d)) k
/-- The row maximum. -/
def rowMaximum : EReal :=
  max (Ideal.ofBits .f32 0xFF800000#32) (Finset.univ.fold max (Ideal.ofBits .f32 0xFF800000#32) (score x0 x1 b q))
/-- The shifted exponential. -/
def expo (k : Fin 2048) : EReal := Ideal.exp (score x0 x1 b q k - rowMaximum x0 x1 b q)
/-- Its row sum. -/
def expoSum : EReal := Ideal.ofBits .f32 0x00000000#32 + ∑ k, expo x0 x1 b q k
/-- The gated softmax weight. -/
def gated (k : Fin 2048) : EReal := Ideal.div (expo x0 x1 b q k) (expoSum x0 x1 b q) * x3 (ix3 b q k)
/-- The L1 norm of the gated weights, plus eps. -/
def gatedNorm : EReal :=
  (Ideal.ofBits .f32 0x00000000#32 + ∑ k, max (gated x0 x1 x3 b q k) (-(gated x0 x1 x3 b q k))) + Ideal.ofBits .f32 0x322BCC77#32

/-- The normalised form of an entry is the sum over the keys of the renormalised weight times the value. -/
theorem attnNormalised_eq (x2 : QKV.Idx → EReal) (d : Fin 256) :
    attnNormalised x0 x1 x2 x3 b q d = ∑ k, Ideal.div (gated x0 x1 x3 b q k) (gatedNorm x0 x1 x3 b q) * x2 (ix3 b k d) := rfl

end Stages

/-! ## The generated stages at literal coordinates -/

section Read
variable (x0 x1 x2 : (⟨S8x2048x256, .f32⟩ : BufTy).Contents (Elt Ideal)) (x3 : (⟨S8x2048x2048, .f32⟩ : BufTy).Contents (Elt Ideal))
variable (b : Fin 8) (q : Fin 2048)

theorem score_apply (k : Fin 2048) : val_main_v3 (F := Ideal) x0 x1 (ix3 b q k) = score x0 x1 b q k := by
  rw [val_main_v3_apply, val_main_v0_apply, val_main_v2_apply, val_main_v1_apply, val_main_cst_apply]
  unfold score scoreDivided
  refine congrArg₂ Ideal.div (Finset.sum_congr rfl fun d _ => ?_) rfl
  exact congrArg₂ (· * ·) (congrArg x0 (queryIdx b q k d)) (congrArg x1 (keyIdx b q k d))

/-- The host's maximum over the key axis, as a fold over the 2048 keys. -/
theorem foldMax_apply : val_main_v4 (F := Ideal) x0 x1 (ix2 b q)
    = Finset.univ.fold max (Ideal.ofBits .f32 0xFF800000#32) (score x0 x1 b q) := by
  unfold val_main_v4
  refine (hostMax_apply (val_main_v3 (F := Ideal) x0 x1) (val_main_cst_0 (F := Ideal)) b q).trans ?_
  exact Finset.fold_congr fun k _ => score_apply x0 x1 b q k

theorem rowMaximum_apply : val_main_v6 (F := Ideal) x0 x1 (ix2 b q) = rowMaximum x0 x1 b q := by
  rw [val_main_v6_apply, val_main_v5_apply, val_main_cst_1_apply, foldMax_apply]
  rfl

theorem expo_apply (k : Fin 2048) : val_main_v10 (F := Ideal) x0 x1 (ix3 b q k) = expo x0 x1 b q k := by
  rw [val_main_v10_apply, val_main_v9_apply, score_apply, val_main_v8_apply, colIdx8, val_main_v7_apply, rowIdx7, rowMaximum_apply]
  rfl

theorem expoSum_apply : val_main_v11 (F := Ideal) x0 x1 (ix2 b q) = expoSum x0 x1 b q := by
  rw [val_main_v11_apply, val_main_cst_2_apply]
  unfold expoSum
  refine congrArg₂ (· + ·) rfl (Finset.sum_congr rfl fun k _ => ?_)
  rw [sumIdx11, expo_apply]

theorem gated_apply (k : Fin 2048) : val_main_v15 (F := Ideal) x0 x1 x3 (ix3 b q k) = gated x0 x1 x3 b q k := by
  rw [val_main_v15_apply, val_main_v14_apply, expo_apply, val_main_v13_apply, colIdx13, val_main_v12_apply, rowIdx12, expoSum_apply]
  rfl

theorem gatedNorm_apply (u : Fin 1) : val_main_v20 (F := Ideal) x0 x1 x3 (ix3 b q u) = gatedNorm x0 x1 x3 b q := by
  rw [val_main_v20_apply, val_main_v18_apply, rowIdx18, val_main_v17_apply, val_main_cst_3_apply, val_main_v19_apply, val_main_cst_4_apply]
  unfold gatedNorm
  refine congrArg₂ (· + ·) (congrArg₂ (· + ·) rfl (Finset.sum_congr rfl fun k _ => ?_)) rfl
  rw [sumIdx17, val_main_v16_apply, gated_apply]
  rfl

/-- The reference's result at (b, q, d) is the normalised attention entry. -/
theorem result_apply (d : Fin 256) :
    val_main_v23 (F := Ideal) x0 x1 x2 x3 (ix3 b q d) = attnNormalised x0 x1 x2 x3 b q d := by
  rw [val_main_v23_apply, attnNormalised_eq]
  refine Finset.sum_congr rfl fun k _ => ?_
  rw [weightIdx, valueIdx, val_main_v22_apply, gated_apply, val_main_v21_apply, colIdx21, gatedNorm_apply]
  rfl

end Read

/-- THE REFERENCE'S RESULT ARRAY is the normalised attention of its arguments. -/
theorem result_eq (x0 x1 x2 : (⟨S8x2048x256, .f32⟩ : BufTy).Contents (Elt Ideal)) (x3 : (⟨S8x2048x2048, .f32⟩ : BufTy).Contents (Elt Ideal)) :
    val_main_v23 (F := Ideal) x0 x1 x2 x3 = arrayNormalised x0 x1 x2 x3 := by
  funext i
  obtain ⟨b, q, d, rfl⟩ : ∃ (b : Fin 8) (q : Fin 2048) (d : Fin 256), i = ix3 b q d := ⟨i 0, i 1, i 2, eq_ix3 i⟩
  exact result_apply x0 x1 x2 x3 b q d

end Cert.ReferenceIdeal.StageValue

end
-- ==== Proof.Finite.lean ====
/-
  From the precondition to real numbers: every entry of the four argument arrays is a real number.

  The precondition is the conjunction, over the four arrays, of "every entry has absolute value below plus infinity". A
  conjunction of one-bit words is 1 only if each is; an all-reduction by "and" is 1 only if every element is; and an extended
  real whose absolute value is below plus infinity is neither infinity, so it is a real number.
-/
import proofs.«410441_j50543175139786_3_alg».proof.Pre_finite_inputs
import proofs.«410441_j50543175139786_3_alg».proof.Proof.Spec
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic Idealize.ShloMosaic.ValueIdx Cert.Spec

variable [Cert.Pre_finite_inputs.Facts]

instance : Subsingleton S_.Idx := ⟨fun a b => funext fun d => d.elim0⟩

/-- An extended real whose absolute value is below plus infinity is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If the all-reduction of "absolute value below plus infinity" over an array is 1, every entry is a real number. -/
theorem isReal_of_all {S : Shape} {axes : List (Fin S.rank)} (a : FVec Ideal S .f32) (hb : S_.BroadcastsInDim S (![] : Fin 0 → Fin S.rank))
    (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ix0 = 1#1) : IsReal a := by
  intro i
  have hi := Host.reduce_andi_all _ _ hr hu ix0 e i
  exact real_of_abs_lt_top (a i) hi

/-- THE PRECONDITION, READ: all four argument arrays hold real numbers. -/
theorem isReal_of_pre (a0 a1 a2 : FVec Ideal S8x2048x256 .f32) (a3 : FVec Ideal S8x2048x2048 .f32)
    (h : fn (F := Ideal) a0 a1 a2 a3 = fun _ => 1#1) : IsReal a0 ∧ IsReal a1 ∧ IsReal a2 ∧ IsReal a3 := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨isReal_of_all a0 _ _ _ h1, isReal_of_all a1 _ _ _ h2, isReal_of_all a2 _ _ _ h3, isReal_of_all a3 _ _ _ h4⟩

end Cert.Pre_finite_inputs.Decode

end
-- ==== Proof.lean ====
/-
  Gated softmax attention with an L1 renormalisation: a blocked kernel against its array-level reference, over the
  extended reals.

  For queries, keys, values Q, K, V of shape [8, 2048, 256] and a gate M of shape [8, 2048, 2048], both programs compute
      out[b, q, d] = sum_k ( A[b, q, k] * M[b, q, k] / (sum_k |A[b, q, k] * M[b, q, k]| + eps) ) * V[b, k, d],
  where A is the softmax over k of (Q[b, q, :] . K[b, k, :]) / sqrt 256.
  The reference computes it as written. The kernel, per batch and per half of the query axis, scales the query block by
  1/16 before the contraction, keeps the exponentials p unnormalised, and multiplies sum_k (p * M) * V by one reciprocal,
  1 / (sum_k |p * M| + eps * sum_k p): with l = sum_k p > 0 this is the same number, because dividing every weight by l
  divides the L1 norm by l too. The identity uses the distributive law and cancellation, which fail at the infinities; the
  precondition makes every entry of the four arrays a real number, and then every intermediate quantity is real
  (the row maximum of finitely many reals is real, so the exponentials are positive reals and l > 0).

  The modules: RowMath (the identity for one row), Consts (the bit patterns as numbers), Spec (the result as one function
  of the arrays, in both forms, equal on real arrays), KernelRow (the kernel's stored block at an element), KernelArray
  (from the sixteen blocks to the result array, and the kernel's run), RefValue (the reference's stages at an index),
  Finite (the precondition read as "every entry is real").
-/
import proofs.«410441_j50543175139786_3_alg».proof.Defs
import proofs.«410441_j50543175139786_3_alg».proof.Proof.Gen.Kernel
import proofs.«410441_j50543175139786_3_alg».proof.Proof.Gen.Kernel.Skeleton
import proofs.«410441_j50543175139786_3_alg».proof.Proof.Gen.Kernel.Launch
import proofs.«410441_j50543175139786_3_alg».proof.Proof.Gen.Kernel.Points
import proofs.«410441_j50543175139786_3_alg».proof.Proof.Gen.Kernel.Frame
import proofs.«410441_j50543175139786_3_alg».proof.Proof.Gen.KernelIdeal
import proofs.«410441_j50543175139786_3_alg».proof.Proof.Gen.KernelIdeal.Skeleton
import proofs.«410441_j50543175139786_3_alg».proof.Proof.Gen.KernelIdeal.Launch
import proofs.«410441_j50543175139786_3_alg».proof.Proof.Gen.KernelIdeal.Points
import proofs.«410441_j50543175139786_3_alg».proof.Proof.Gen.KernelIdeal.Frame
import proofs.«410441_j50543175139786_3_alg».proof.Proof.Gen.ReferenceIdeal
import proofs.«410441_j50543175139786_3_alg».proof.Proof.Gen.Pre_finite_inputs
import proofs.«410441_j50543175139786_3_alg».proof.Proof.Gen.KernelIdeal.Value
import proofs.«410441_j50543175139786_3_alg».proof.Proof.Gen.ReferenceIdeal.Run
import proofs.«410441_j50543175139786_3_alg».proof.Proof.Gen.ReferenceIdeal.Read
import proofs.«410441_j50543175139786_3_alg».proof.Proof.KernelArray
import proofs.«410441_j50543175139786_3_alg».proof.Proof.RefValue
import proofs.«410441_j50543175139786_3_alg».proof.Proof.Finite
import Idealize.ShloMosaic.Adequacy
import Idealize.ShloMosaic.Init

noncomputable section

namespace Cert.Proof

open Idealize.ShloMosaic Idealize.SL.Sem

/-- The kernel as printed runs, and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the unnormalised attention of its arguments and the reference's at the normalised
    attention of arguments that agree; under the precondition every entry is real, and the two forms are one array. -/
theorem algebraic : Cert.algebraic_KernelIdeal_ReferenceIdeal := by
  intro m ρ m' ρ' hpre hagree
  refine ⟨fun c => Cert.Spec.arrayUnnormalised
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.StageValue.result_eq,
    (hagree c).1, (hagree c).2.1, (hagree c).2.2.1, (hagree c).2.2.2]
  obtain ⟨hQ, hK, hV, hM⟩ := Cert.Pre_finite_inputs.Decode.isReal_of_pre _ _ _ _ (hpre c)
  exact (Cert.Spec.array_forms_agree _ _ _ _ hQ hK hV hM).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
